-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S128x256 : Shape := ⟨2, ![128, 256]⟩
abbrev S131072 : Shape := ⟨1, ![131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x256 .f32) (main_arg1 : FVec F S128x256 .f32) (main_arg2 : IVec S131072 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_c_2 : IVec S_ 32 := constantI S_ 32 4294967295#32
  let main_v9 : IVec S131072 32 := broadcastInDim S131072 ![] bcast_S_S131072 main_c_2
  let main_v10 : IVec S131072 1 := cmpi .sge main_arg2 main_v9
  let main_c_3 : IVec S_ 32 := constantI S_ 32 1#32
  let main_v11 : IVec S131072 32 := broadcastInDim S131072 ![] bcast_S_S131072 main_c_3
  let main_v12 : IVec S131072 1 := cmpi .sle main_arg2 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  main_v15
-- ==== Kernel.lean ====
abbrev S131072x256 : Shape := ⟨2, ![131072, 256]⟩
abbrev S128x256 : Shape := ⟨2, ![128, 256]⟩
abbrev S131072 : Shape := ⟨1, ![131072]⟩
abbrev S131072x1 : Shape := ⟨2, ![131072, 1]⟩
abbrev S1x1 : Shape := ⟨2, ![1, 1]⟩
abbrev S4096x256 : Shape := ⟨2, ![4096, 256]⟩
abbrev S4096x1 : Shape := ⟨2, ![4096, 1]⟩
abbrev S4096 : Shape := ⟨1, ![4096]⟩
abbrev S128 : Shape := ⟨1, ![128]⟩
abbrev S256x128 : Shape := ⟨2, ![256, 128]⟩
abbrev S4096x128 : Shape := ⟨2, ![4096, 128]⟩
abbrev S1x128 : Shape := ⟨2, ![1, 128]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S128x256, .f32⟩
  | .hbm, ⟨2, _⟩ => ⟨S131072, .i32⟩
  | .hbm, ⟨3, _⟩ => ⟨S131072x1, .i32⟩
  | .hbm, ⟨4, _⟩ => ⟨S1x1, .f32⟩
  | .hbm, ⟨5, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S128x256, .f32⟩
  | .local _ .vmem, ⟨3, _⟩ => ⟨S4096x1, .i32⟩
  | .local _ .vmem, ⟨4, _⟩ => ⟨S4096x1, .i32⟩
  | .local _ .vmem, ⟨5, _⟩ => ⟨S1x1, .f32⟩
  | .local _ .vmem, ⟨6, _⟩ => ⟨S1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v48 : BitVec 1 := Scalar.cmpi .eq arg0 c31_i32
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S131072_S131072x1 : S131072.ShapeCasts S131072x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  inb_S128x256_S128x256_0_0 : ∀ a, (![0, 0] : Fin 2 → Nat) a + S128x256.size a ≤ S128x256.size a
  h_S128x256 : 0 < S128x256.numel
  reduces_S4096x256_S4096 : S4096x256.Reduces [1] S4096
  shapeCasts_S4096_S4096x1 : S4096.ShapeCasts S4096x1
  reduces_S128x256_S128 : S128x256.Reduces [1] S128
  bitsLt_bf16_f32 : FTy.bits .bf16 < FTy.bits .f32
  transposes_S128x256_p1_0_S256x128 : S128x256.Transposes [1, 0] S256x128
  broadcasts_S4096x1_S4096x128 : S4096x1.Broadcasts S4096x128
  shapeCasts_S128_S1x128 : S128.ShapeCasts S1x128
  broadcasts_S1x128_S4096x128 : S1x128.Broadcasts S4096x128
  reduces_S4096x128_S4096 : S4096x128.Reduces [1] S4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x1_S1 : S4096x1.Reduces [0] S1
  shapeCasts_S1_S1x1 : S1.ShapeCasts S1x1
  shapeCasts_S1x1_S_ : S1x1.ShapeCasts S_
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S131072x1.size a
  hwx0_2 : ∀ i : grid0.Coords, EltTy.bits .i32 = 32 ∨ (Rect.block (s := S131072x1) S4096x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S131072x256 : Shape := ⟨2, ![131072, 256]⟩
abbrev S128x256 : Shape := ⟨2, ![128, 256]⟩
abbrev S131072 : Shape := ⟨1, ![131072]⟩
abbrev S_ : Shape := ⟨0, ![]⟩
abbrev S131072x1 : Shape := ⟨2, ![131072, 1]⟩
abbrev S128 : Shape := ⟨1, ![128]⟩
abbrev S256x128 : Shape := ⟨2, ![256, 128]⟩
abbrev S131072x128 : Shape := ⟨2, ![131072, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S128x256, .f32⟩
  | .hbm, ⟨2, _⟩ => ⟨S131072, .i32⟩
  | .hbm, ⟨3, _⟩ => ⟨S131072x256, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S128x256, .f32⟩
  | .hbm, ⟨8, _⟩ => ⟨S_, .f32⟩
  | .hbm, ⟨9, _⟩ => ⟨S128, .f32⟩
  | .hbm, ⟨10, _⟩ => ⟨S256x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S1x128, .f32⟩
  | .hbm, ⟨18, _⟩ => ⟨S131072x128, .f32⟩
  | .hbm, ⟨19, _⟩ => ⟨S131072x128, .f32⟩
  | .hbm, ⟨20, _⟩ => ⟨S_, .f32⟩
  | .hbm, ⟨21, _⟩ => ⟨S131072, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S131072, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S128x256_S128_d1 : S128x256.ReducesTo [1] S128
  transposes_S128x256_S256x128_1_0 : S128x256.Transposes [1, 0] S256x128
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  reducesTo_S131072x128_S131072_d1 : S131072x128.ReducesTo [1] S131072
  bcast_S_S131072 : S_.BroadcastsInDim S131072 (![] : Fin 0 → Fin S131072.rank)
  reducesTo_S131072_S_d0 : S131072.ReducesTo [0] S_
  dot_S131072x256_S256x128_S131072x128_1_0_0_1_n_n_wf : DotDims.WF S131072x256 S256x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.RowLoss.lean ====
/-
  The function both programs compute, written once over the three argument arrays, at the extended reals.

  A row `x` of the batch and the table `C` of 128 centres give the expanded squared distances
  `|x|² - 2 x·c_j + |c_j|²`; their minimum over `j`, cut below at zero, is the row's distance `d`.
  A label then picks the row's loss: `d` itself for label 0, `(d + ε)` for label 1, `1 / (d + ε)` for
  label -1 — the kernel spells the last two as a product and a quotient by one, the reference as the
  power `(d + ε) ^ label`. The result is the mean of the losses over the 131072 rows.
-/
import Idealize.ShloMosaic.PureOps.Ideal
import Idealize.ShloMosaic.PureOps.Ideal.Laws
import Idealize.ShloMosaic.Lib.ValueIdx

noncomputable section

namespace Cert.Dmsad

open Idealize.ShloMosaic Idealize.ShloMosaic.ValueIdx

/-- The batch, the centres and the labels as arrays. -/
abbrev XS : Shape := ⟨2, ![131072, 256]⟩
abbrev CS : Shape := ⟨2, ![128, 256]⟩
abbrev LS : Shape := ⟨1, ![131072]⟩

/-- The literals of the two programs: ε, one, two, +∞ and the number of rows. -/
abbrev eps : EReal := Ideal.ofBits .f32 0x358637BD#32
abbrev one : EReal := Ideal.ofBits .f32 0x3F800000#32
abbrev two : EReal := Ideal.ofBits .f32 0x40000000#32
abbrev inf : EReal := Ideal.ofBits .f32 0x7F800000#32
abbrev rows : EReal := Ideal.ofBits .f32 0x48000000#32

/-- The squared norm of a row. -/
def sq (x : Fin 256 → EReal) : EReal := ∑ k : Fin 256, x k * x k

/-- The expanded squared distance from the row `x` to centre `j`. -/
def sqdist (x : Fin 256 → EReal) (C : CS.Idx → EReal) (j : Fin 128) : EReal :=
  sq x - two * (∑ k : Fin 256, x k * C (ix2 j k)) + sq (fun k => C (ix2 j k))

/-- The row's distance to its nearest centre, cut below at zero. -/
def dist (x : Fin 256 → EReal) (C : CS.Idx → EReal) : EReal :=
  max ((Finset.univ : Finset (Fin 128)).fold min inf (sqdist x C)) 0

/-- The row's loss as the kernel selects it. -/
def lossK (d : EReal) (s : BitVec 32) : EReal :=
  Scalar.select (IntOp.cmpi .eq s 0#32) d
    (Scalar.select (IntOp.cmpi .eq s 1#32) (one * (d + eps)) (Ideal.div one (d + eps)))

/-- The row's loss as the reference selects it: a power by the label. -/
def lossR (d : EReal) (s : BitVec 32) : EReal :=
  Scalar.select (IntOp.cmpi .eq s 0#32) d (one * Ideal.pow (d + eps) ((s.toInt : ℝ) : EReal))

/-- Row `r` of the batch. -/
abbrev row (X : XS.Idx → EReal) (r : Fin 131072) : Fin 256 → EReal := fun k => X (ix2 r k)

/-- Row `p` of block `t` when the batch is cut into 32 blocks of 4096 rows. -/
def blockRow (t : Fin 32) (p : Fin 4096) : Fin 131072 :=
  ⟨4096 * t.val + p.val, by have := t.isLt; have := p.isLt; omega⟩

/-- The mean loss: the sum of the rows' losses (the reference's spelling) over the number of rows. -/
def meanLoss (X : XS.Idx → EReal) (C : CS.Idx → EReal) (S : LS.Idx → BitVec 32) : EReal :=
  Ideal.div (∑ r : Fin 131072, lossR (dist (row X r) C) (S (ix1 r))) rows

end Cert.Dmsad

end
-- ==== Proof.KernelBody.lean ====
/-
  The kernel body's arithmetic read at an index, at the extended reals.

  One grid point holds a block of 4096 rows `x`, the table `c` of the 128 centres and the block's 4096
  labels. Row `p` of the block gets the expanded squared distances `|x_p|² - 2 x_p·c_j + |c_j|²`, their
  minimum over `j` cut below at zero, and from it and its label the row's loss; the block's 4096 losses
  are summed and added to the running total.
-/
import proofs.«156097_j43860206027138_1_alg».proof.Proof.Gen.KernelIdeal.Skeleton
import proofs.«156097_j43860206027138_1_alg».proof.Proof.RowLoss
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.Dmsad.Kernel

open Idealize.ShloMosaic Idealize.ShloMosaic.ValueIdx Cert.KernelIdeal Cert.KernelIdeal.Gen

/-! ## Layout steps with a unit column -/

/-- A vector made a column reads, at `(p, 0)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column broadcast along the rows reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row sums -/

/-- The sum along a row of a 4096-row block. -/
theorem rowSum_apply (v : FVec Ideal S4096x256 .f32) (h : S4096x256.Reduces [1] S4096) (p : Fin 4096) :
    multiReduction .add [1] S4096 v 0x00000000#32 h (.inl rfl) rfl (ix1 p)
      = ∑ k : Fin 256, v (ix2 p k) := by
  refine (Ideal.multiReduction_add_single v 0x00000000#32 h (.inl rfl) rfl (ix1 p)).trans ?_
  refine Finset.sum_congr rfl fun k _ => congrArg v ?_
  funext a
  match a with
  | ⟨0, _⟩ => rfl
  | ⟨1, _⟩ => rfl

/-- The sum along a row of the table of centres. -/
theorem cenSum_apply (v : FVec Ideal S128x256 .f32) (h : S128x256.Reduces [1] S128) (j : Fin 128) :
    multiReduction .add [1] S128 v 0x00000000#32 h (.inl rfl) rfl (ix1 j)
      = ∑ k : Fin 256, v (ix2 j k) := by
  refine (Ideal.multiReduction_add_single v 0x00000000#32 h (.inl rfl) rfl (ix1 j)).trans ?_
  refine Finset.sum_congr rfl fun k _ => congrArg v ?_
  funext a
  match a with
  | ⟨0, _⟩ => rfl
  | ⟨1, _⟩ => rfl

/-- The minimum along a row of the block's 4096 × 128 squared distances, from +∞. -/
theorem rowMin_apply (v : FVec Ideal S4096x128 .f32) (h : S4096x128.Reduces [1] S4096) (p : Fin 4096) :
    multiReduction .minimumf [1] S4096 v 0x7F800000#32 h (.inl rfl) rfl (ix1 p)
      = (Finset.univ : Finset (Fin 128)).fold min inf (fun j => v (ix2 p j)) := by
  refine (multiReduction_minimumf_eq_fold v 0x7F800000#32 h (.inl rfl) rfl (ix1 p)).trans ?_
  refine (h.fold_filter_drop_single _ _ v (ix1 p)).trans ?_
  refine congrArg (fun f => Finset.fold min inf f (Finset.univ : Finset (Fin 128))) (funext fun j => congrArg v ?_)
  funext a
  match a with
  | ⟨0, _⟩ => rfl
  | ⟨1, _⟩ => rfl

/-! ## The cross term: a row of the block against a centre -/

theorem lhs_cross_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_cross_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_cross_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_cross_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The matrix product into the zero accumulator, at `(p, j)`: the sum over the 256 features of the products. -/
theorem cross_apply (l : FVec Ideal S4096x256 .bf16) (r : FVec Ideal S256x128 .bf16) (p : Fin 4096) (j : Fin 128) :
    matmul dot_S4096x256_S256x128_S4096x128_1_0_0_1_n_n none l r (constant (F := Ideal) S4096x128 .f32 0x00000000#32) (ix2 p j)
      = ∑ k : Fin 256, l (ix2 p k) * r (ix2 k j) := by
  simp only [matmul]
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 p j) ((ValueIdx.contrEquiv1 dot_S4096x256_S256x128_S4096x128_1_0_0_1_n_n 256 rfl rfl).symm k) = ix2 p k := funext fun a => Fin.ext (by
    match a with
    | ⟨0, _⟩ => exact lhs_cross_0 _ _
    | ⟨1, _⟩ => exact (lhs_cross_1 _ _).trans hk)
  have er : dot_S4096x256_S256x128_S4096x128_1_0_0_1_n_n.rhsIdx (ix2 p j) ((ValueIdx.contrEquiv1 dot_S4096x256_S256x128_S4096x128_1_0_0_1_n_n 256 rfl rfl).symm k) = ix2 k j := funext fun a => Fin.ext (by
    match a with
    | ⟨0, _⟩ => exact (rhs_cross_0 _ _).trans hk
    | ⟨1, _⟩ => exact rhs_cross_1 _ _)
  rw [el, er]

/-! ## The row's distance -/

/-- Row `p` of the block: its distance to the nearest centre, cut below at zero. -/
theorem dist_apply (x0 : Vec Ideal S4096x256 .f32) (x1 : Vec Ideal S128x256 .f32) (p : Fin 4096) :
    k0_pay4 x0 x1 (ix2 p (0 : Fin 1)) = dist (fun k => x0 (ix2 p k)) x1 := by
  unfold k0_pay4
  dsimp only
  rw [maximumf_apply, broadcast_apply, shapeCast_a_a1_apply, rowMin_apply]
  unfold dist
  rw [show (Scalar.ofBits (F := Ideal) .f32 0x00000000#32) = (0 : EReal) from Ideal.ofBits_zero_f32]
  refine congrArg (fun f => max (Finset.fold min inf f (Finset.univ : Finset (Fin 128))) 0) (funext fun j => ?_)
  rw [addf_apply, subf_apply, mulf_apply, broadcast_apply, broadcastTo_a1_ab_apply, shapeCast_a_a1_apply,
    rowSum_apply, cross_apply, broadcastTo_1b_ab_apply, shapeCast_a_1a_apply, cenSum_apply]
  unfold sqdist sq
  have ht : ∀ (y : FVec Ideal S128x256 .bf16) (h : S128x256.Transposes [1, 0] S256x128) (k : Fin 256),
      transpose S256x128 [1, 0] y h (ix2 k j) = y (ix2 j k) := fun y h k => transpose_ix2_apply y h k j
  simp only [ht]
  rfl

/-! ## The block's losses and the running total -/

/-- The sum down the one column of the block's 4096 losses. -/
theorem colSum_apply (v : FVec Ideal S4096x1 .f32) (h : S4096x1.Reduces [0] S1) :
    multiReduction .add [0] S1 v 0x00000000#32 h (.inl rfl) rfl (ix1 (0 : Fin 1))
      = ∑ p : Fin 4096, v (ix2 p (0 : Fin 1)) := by
  refine (Ideal.multiReduction_add_single v 0x00000000#32 h (.inl rfl) rfl (ix1 (0 : Fin 1))).trans ?_
  refine Finset.sum_congr rfl fun k _ => congrArg v ?_
  funext a
  match a with
  | ⟨0, _⟩ => rfl
  | ⟨1, _⟩ => rfl

/-- Row `p`'s loss, as the body selects it from the row's distance and label. -/
theorem loss_apply (x0 : Vec Ideal S4096x256 .f32) (x1 : Vec Ideal S128x256 .f32) (x2 : Vec Ideal S4096x1 .i32) (p : Fin 4096) :
    select (k0_pay8 x2) (k0_pay4 x0 x1) (select (cmpi .eq (k0_pay5 x2) k0_pay9) (k0_pay6 x0 x1) (k0_pay7 x0 x1)) (ix2 p (0 : Fin 1))
      = lossK (dist (fun k => x0 (ix2 p k)) x1) (x2 (ix2 p (0 : Fin 1))) := by
  rw [← dist_apply]
  unfold k0_pay8 k0_pay5 k0_pay9 k0_pay6 k0_pay7 lossK
  generalize k0_pay4 x0 x1 = d4
  dsimp only
  rw [shapeCast_self]
  rfl

/-- The running total after a block: the total before it plus the block's 4096 losses. -/
theorem step_apply (x0 : Vec Ideal S4096x256 .f32) (x1 : Vec Ideal S128x256 .f32) (x2 : Vec Ideal S4096x1 .i32)
    (a : Vec Ideal S1x1 .f32) :
    k0_pay1 (k0_pay4 x0 x1) (k0_pay5 x2) (k0_pay6 x0 x1) (k0_pay7 x0 x1) (k0_pay8 x2) k0_pay9 a (ix2 (0 : Fin 1) (0 : Fin 1))
      = a (ix2 (0 : Fin 1) (0 : Fin 1))
        + ∑ p : Fin 4096, lossK (dist (fun k => x0 (ix2 p k)) x1) (x2 (ix2 p (0 : Fin 1))) := by
  unfold k0_pay1
  dsimp only
  rw [shapeCast_self, addf_apply, shapeCast_a_1a_apply, colSum_apply]
  exact congrArg (a (ix2 (0 : Fin 1) (0 : Fin 1)) + ·) (Finset.sum_congr rfl fun p _ => loss_apply x0 x1 x2 p)

/-- The total the first block starts from is zero. -/
theorem zero_apply : (k0_pay3 (F := Ideal)) (ix2 (0 : Fin 1) (0 : Fin 1)) = 0 := by
  unfold k0_pay3
  rw [shapeCast_self, broadcast_apply]
  exact Ideal.ofBits_zero_f32

/-- The mean: the total over the number of rows. -/
theorem mean_apply (a : Vec Ideal S1x1 .f32) :
    k0_pay2 a (ix2 (0 : Fin 1) (0 : Fin 1)) = Ideal.div (a (ix2 (0 : Fin 1) (0 : Fin 1))) rows := rfl

end Cert.Dmsad.Kernel

end
-- ==== Proof.KernelRun.lean ====
/-
  The kernel's run, read as values.

  The grid has 32 points; point `t` holds rows `4096 t … 4096 t + 4095` of the batch, the whole table of
  centres and the rows' labels. A one-element scratch carries the running total of the rows' losses: the first
  point stores zero and adds its block's losses, every later point adds its own, and the last point also stores
  the total over the number of rows into the one-element result, the only block ever written back. So the
  result array ends holding the sum of all 131072 losses over 131072, and the program's scalar result is that
  element.
-/
import proofs.«156097_j43860206027138_1_alg».proof.Proof.Gen.KernelIdeal.Frame
import proofs.«156097_j43860206027138_1_alg».proof.Proof.KernelBody
import proofs.«156097_j43860206027138_1_alg».proof.Proof.RowLoss
import Idealize.ShloMosaic.Lib.Pipeline.Value
import Idealize.ShloMosaic.Lib.StableHlo.Run
import Idealize.ShloMosaic.Lib.Tactic

set_option maxRecDepth 16384

noncomputable section

namespace Cert.Dmsad.Kernel

open Idealize.ShloMosaic Idealize.ShloMosaic.TcCoe Idealize.SL.Sem Idealize.ShloMosaic.ValueIdx
open Idealize.ShloMosaic.Pipeline (Dat)
open Cert.KernelIdeal Cert.KernelIdeal.Gen

/-! ## What each case of the body leaves, as values -/

section Pieces

variable {F : FTy → Type} [FloatOps F]

theorem hz : (![0, 0] : Fin 2 → Nat) = fun _ => 0 := funext fun a => by fin_cases a <;> rfl

/-- The running total after a block, from the total `a` before it. -/
abbrev step (x0 : Vec F S4096x256 .f32) (x1 : Vec F S128x256 .f32) (x2 : Vec F S4096x1 .i32) (a : Vec F S1x1 .f32) :
    Vec F S1x1 .f32 :=
  k0_pay1 (k0_pay4 x0 x1) (k0_pay5 x2) (k0_pay6 x0 x1) (k0_pay7 x0 x1) (k0_pay8 x2) k0_pay9 a

/-- The first point: the scratch is set to zero, read back, and the block's losses added. -/
theorem sout_A (c : Dev nD) (i : grid0.Coords) (a1 : Memref sig .tc .vmem S4096x256 .f32) (h1 : a1.IsWhole) (a2 : Memref sig .tc .vmem S128x256 .f32) (h2 : a2.IsWhole) (a3 : Memref sig .tc .vmem S4096x1 .i32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 : Vec F S4096x256 .f32) (x1 : Vec F S128x256 .f32) (x2 : Vec F S4096x1 .i32) :
    sout0_A_0 c i a1 h1 a2 h2 a3 h3 a4 h4 a5 h5 hc0 hc1 x0 x1 x2 = step x0 x1 x2 k0_pay3 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h5.read_unread,
    View.ld_unit_zero (S := S4096x256) hz, View.ld_unit_zero (S := S128x256) hz, View.ld_unit_zero (S := S4096x1) hz,
    View.ld_unit_zero (S := S1x1) hz, View.readCov_unit_zero (S := S1x1) _ hz]

/-- A middle point: the block's losses added to what the point before left. -/
theorem sout_B (c : Dev nD) (i : grid0.Coords) (a1 : Memref sig .tc .vmem S4096x256 .f32) (h1 : a1.IsWhole) (a2 : Memref sig .tc .vmem S128x256 .f32) (h2 : a2.IsWhole) (a3 : Memref sig .tc .vmem S4096x1 .i32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S4096x256 .f32) (x1 : Vec F S128x256 .f32) (x2 : Vec F S4096x1 .i32) (xs0 : Vec F S1x1 .f32) :
    sout0_B_0 c i a1 h1 a2 h2 a3 h3 a4 h4 a5 h5 hc0 hc1 x0 x1 x2 xs0 = step x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero hz]
  simp only [View.readAt_eq_ld, h1.read_unread, h2.read_unread, h3.read_unread, h5.read_unread,
    View.ld_unit_zero (S := S4096x256) hz, View.ld_unit_zero (S := S128x256) hz, View.ld_unit_zero (S := S4096x1) hz,
    View.ld_unit_zero (S := S1x1) hz, View.readCov_unit_zero (S := S1x1) _ hz]

/-- The last point leaves the same in the scratch, -/
theorem sout_C (c : Dev nD) (i : grid0.Coords) (a1 : Memref sig .tc .vmem S4096x256 .f32) (h1 : a1.IsWhole) (a2 : Memref sig .tc .vmem S128x256 .f32) (h2 : a2.IsWhole) (a3 : Memref sig .tc .vmem S4096x1 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S4096x256 .f32) (x1 : Vec F S128x256 .f32) (x2 : Vec F S4096x1 .i32) (xs0 : Vec F S1x1 .f32) :
    sout0_C_0 c i a1 h1 a2 h2 a3 h3 a4 h4 a5 h5 hc0 hc1 x0 x1 x2 xs0 = step x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S4096x256) hz, View.ld_unit_zero (S := S128x256) hz, View.ld_unit_zero (S := S4096x1) hz,
    View.ld_unit_zero (S := S1x1) hz, View.readCov_unit_zero (S := S1x1) _ hz]

/-- and the total over the number of rows in the result's block. -/
theorem out_C (c : Dev nD) (i : grid0.Coords) (a1 : Memref sig .tc .vmem S4096x256 .f32) (h1 : a1.IsWhole) (a2 : Memref sig .tc .vmem S128x256 .f32) (h2 : a2.IsWhole) (a3 : Memref sig .tc .vmem S4096x1 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S4096x256 .f32) (x1 : Vec F S128x256 .f32) (x2 : Vec F S4096x1 .i32) (xs0 : Vec F S1x1 .f32) :
    out0_C_3 c i a1 h1 a2 h2 a3 h3 a4 h4 a5 h5 hc0 hc1 x0 x1 x2 xs0 = k0_pay2 (step x0 x1 x2 xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero hz]
  simp only [View.readAt_eq_ld, h1.read_unread, h2.read_unread, h3.read_unread, h5.read_unread,
    View.ld_unit_zero (S := S4096x256) hz, View.ld_unit_zero (S := S128x256) hz, View.ld_unit_zero (S := S4096x1) hz,
    View.ld_unit_zero (S := S1x1) hz, View.readCov_unit_zero (S := S1x1) _ hz]

end Pieces

/-! ## The scratch after each point -/

variable (m : (ℓ : Loc nD τ sig) → Buf (Elt Ideal) ℓ) (ρ : Dev nD → PrngReg)

/-- The three input blocks of point `t`, at their literal types. -/
abbrev xblk (c : Dev nD) (t : Fin cfg0.N) : Vec Ideal S4096x256 .f32 := iblk m c 0 t
abbrev cblk (c : Dev nD) (t : Fin cfg0.N) : Vec Ideal S128x256 .f32 := iblk m c 1 t
abbrev lblk (c : Dev nD) (t : Fin cfg0.N) : Vec Ideal S4096x1 .i32 := iblk m c 2 t

theorem scratch_A (c : Dev nD) (t : Fin cfg0.N) (h0 : t.val % 32 = 0) (h1 : ¬t.val % 32 = 31) :
    (outsAt0 m c t.val t.isLt).2 = step (xblk m c t) (cblk m c t) (lblk m c t) (k0_pay3 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem scratch_B (c : Dev nD) (t : Fin cfg0.N) (h0 : ¬t.val % 32 = 0) (h1 : ¬t.val % 32 = 31) :
    (outsAt0 m c t.val t.isLt).2
      = step (xblk m c t) (cblk m c t) (lblk m c t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem scratch_C (c : Dev nD) (t : Fin cfg0.N) (h0 : ¬t.val % 32 = 0) (h1 : t.val % 32 = 31) :
    (outsAt0 m c t.val t.isLt).2
      = step (xblk m c t) (cblk m c t) (lblk m c t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

theorem result_C (c : Dev nD) (t : Fin cfg0.N) (h0 : ¬t.val % 32 = 0) (h1 : t.val % 32 = 31) :
    (outsAt0 m c t.val t.isLt).1
      = k0_pay2 (step (xblk m c t) (cblk m c t) (lblk m c t) (outsAt0 m c (t.val - 1) (Nat.lt_of_le_of_lt (Nat.sub_le _ _) t.isLt)).2) := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## The blocks are rows of the argument arrays -/

/-- The argument arrays, at their literal types. -/
abbrev Xarr (c : Dev nD) : XS.Idx → EReal := m ((c : Thread nD τ).loc main_arg0)
abbrev Carr (c : Dev nD) : CS.Idx → EReal := m ((c : Thread nD τ).loc main_arg1)
abbrev Sarr (c : Dev nD) : LS.Idx → BitVec 32 := m ((c : Thread nD τ).loc main_arg2)

/-- A grid point as a block number. -/
def blk (t : Fin cfg0.N) : Fin 32 := ⟨t.val, lt_of_lt_of_eq t.isLt N_0⟩

theorem idx_rows : ∀ t : Fin cfg0.N, win0_0.index t 0 = t.val ∧ win0_0.index t 1 = 0 :=
  (by decide +kernel : ∀ t : Fin grid0.N, win0_0.index t 0 = t.val ∧ win0_0.index t 1 = 0)
theorem idx_centres : ∀ t : Fin cfg0.N, win0_1.index t 0 = 0 ∧ win0_1.index t 1 = 0 :=
  (by decide +kernel : ∀ t : Fin grid0.N, win0_1.index t 0 = 0 ∧ win0_1.index t 1 = 0)
theorem idx_labels : ∀ t : Fin cfg0.N, win0_2.index t 0 = t.val ∧ win0_2.index t 1 = 0 :=
  (by decide +kernel : ∀ t : Fin grid0.N, win0_2.index t 0 = t.val ∧ win0_2.index t 1 = 0)

/-- Row `p` of point `t`'s block is row `4096 t + p` of the batch. -/
theorem xblk_apply (c : Dev nD) (t : Fin cfg0.N) (p : Fin 4096) (k : Fin 256) :
    xblk m c t (ix2 p k) = Xarr m c (ix2 (blockRow (blk t) p) k) := by
  unfold xblk iblk
  rw [View.read_apply]
  show V m c main_arg0 _ = m ((c : Thread nD τ).loc main_arg0) _
  rw [V_main_arg0]
  congr 1
  funext a
  apply Fin.ext
  match a with
  | ⟨0, _⟩ => show win0_0.index t 0 * 4096 + 1 * p.val = 4096 * t.val + p.val; rw [(idx_rows t).1]; omega
  | ⟨1, _⟩ => show win0_0.index t 1 * 256 + 1 * k.val = k.val; rw [(idx_rows t).2]; omega

/-- Every point's block of centres is the whole table. -/
theorem cblk_apply (c : Dev nD) (t : Fin cfg0.N) (j : Fin 128) (k : Fin 256) :
    cblk m c t (ix2 j k) = Carr m c (ix2 j k) := by
  unfold cblk iblk
  rw [View.read_apply]
  show V m c main_arg1 _ = m ((c : Thread nD τ).loc main_arg1) _
  rw [V_main_arg1]
  congr 1
  funext a
  apply Fin.ext
  match a with
  | ⟨0, _⟩ => show win0_1.index t 0 * 128 + 1 * j.val = j.val; rw [(idx_centres t).1]; omega
  | ⟨1, _⟩ => show win0_1.index t 1 * 256 + 1 * k.val = k.val; rw [(idx_centres t).2]; omega

/-- The labels reach the region as one column. -/
theorem V_labels (c : Dev nD) :
    (V m c main_v0 : S131072x1.Idx → BitVec 32)
      = shapeCast S131072x1 (m ((c : Thread nD τ).loc main_arg2)) Gen.shapeCasts_S131072_S131072x1 := by
  show StableHlo.after hostOps0 (fun b => m (c, b)) (Proc.devRef .tc main_v0) = _
  after_results
  rfl

/-- Row `p` of point `t`'s block of labels is label `4096 t + p`. -/
theorem lblk_apply (c : Dev nD) (t : Fin cfg0.N) (p : Fin 4096) :
    lblk m c t (ix2 p (0 : Fin 1)) = Sarr m c (ix1 (blockRow (blk t) p)) := by
  unfold lblk iblk
  rw [View.read_apply]
  show (V m c main_v0 : S131072x1.Idx → BitVec 32) _ = _
  rw [V_labels]
  refine Eq.trans ?_ (shapeCast_a_a1_apply (m ((c : Thread nD τ).loc main_arg2)) Gen.shapeCasts_S131072_S131072x1 (blockRow (blk t) p) (0 : Fin 1))
  congr 1
  funext a
  apply Fin.ext
  match a with
  | ⟨0, _⟩ => show win0_2.index t 0 * 4096 + 1 * p.val = 4096 * t.val + p.val; rw [(idx_labels t).1]; omega
  | ⟨1, _⟩ => show win0_2.index t 1 * 1 + 1 * 0 = 0; rw [(idx_labels t).2]

/-! ## The running total is the sum of the blocks' losses -/

/-- Row `r`'s loss, as the kernel selects it. -/
def rowLoss (c : Dev nD) (r : Fin 131072) : EReal :=
  lossK (dist (row (Xarr m c) r) (Carr m c)) (Sarr m c (ix1 r))

/-- The losses of block `n`, summed (nothing past the last block). -/
def blockLoss (c : Dev nD) (n : ℕ) : EReal :=
  if h : n < 32 then ∑ p : Fin 4096, rowLoss m c (blockRow ⟨n, h⟩ p) else 0

/-- One point adds its block's losses to the total. -/
theorem step_value (c : Dev nD) (t : Fin cfg0.N) (a : Vec Ideal S1x1 .f32) :
    step (xblk m c t) (cblk m c t) (lblk m c t) a (ix2 (0 : Fin 1) (0 : Fin 1))
      = a (ix2 (0 : Fin 1) (0 : Fin 1)) + blockLoss m c t.val := by
  refine (step_apply (xblk m c t) (cblk m c t) (lblk m c t) a).trans ?_
  unfold blockLoss
  rw [dif_pos (lt_of_lt_of_eq t.isLt N_0)]
  refine congrArg (a (ix2 (0 : Fin 1) (0 : Fin 1)) + ·) (Finset.sum_congr rfl fun p _ => ?_)
  have e1 : (fun k => xblk m c t (ix2 p k)) = row (Xarr m c) (blockRow (blk t) p) :=
    funext fun k => xblk_apply m c t p k
  have e2 : cblk m c t = Carr m c := funext fun i => by
    obtain ⟨j, k, rfl⟩ : ∃ (j : Fin 128) (k : Fin 256), i = ix2 j k := ⟨i 0, i 1, eq_ix2 i⟩
    exact cblk_apply m c t j k
  rw [e1, e2, lblk_apply]
  rfl

/-- After point `n` the scratch holds the losses of blocks `0 … n`. -/
theorem total_value (c : Dev nD) : ∀ (n : ℕ) (h : n < cfg0.N),
    (outsAt0 m c n h).2 (ix2 (0 : Fin 1) (0 : Fin 1)) = ∑ t ∈ Finset.range (n + 1), blockLoss m c t
  | 0, h => by
    have e := scratch_A m c ⟨0, h⟩ (Nat.zero_mod _) (by dsimp only; omega)
    rw [e, step_value, zero_apply, zero_add, Finset.sum_range_one]
  | n + 1, h => by
    have hN : cfg0.N = 32 := N_0
    have h0 : ¬(⟨n + 1, h⟩ : Fin cfg0.N).val % 32 = 0 := by dsimp only; omega
    have ih := total_value c n (Nat.lt_of_succ_lt h)
    rw [Finset.sum_range_succ, ← ih]
    by_cases h1 : (⟨n + 1, h⟩ : Fin cfg0.N).val % 32 = 31
    · have e := scratch_C m c ⟨n + 1, h⟩ h0 h1
      rw [e, step_value]
      rfl
    · have e := scratch_B m c ⟨n + 1, h⟩ h0 h1
      rw [e, step_value]
      rfl

/-! ## The result array -/

/-- The last point. -/
abbrev tLast : Fin cfg0.N := ⟨31, lt_of_lt_of_eq (by decide : 31 < 32) N_0.symm⟩

/-- What the last point leaves in the result's block. -/
def result (c : Dev nD) : Buf (Elt Ideal) ((c : Thread nD τ).loc main_v1) := (outsAt0 m c 31 tLast.isLt).1

/-- It is the sum of all blocks' losses over the number of rows. -/
theorem result_value (c : Dev nD) :
    result m c (ix2 (0 : Fin 1) (0 : Fin 1)) = Ideal.div (∑ t ∈ Finset.range 32, blockLoss m c t) rows := by
  have e := result_C m c tLast (by decide) (by decide)
  unfold result
  rw [e, mean_apply, step_value, Finset.sum_range_succ]
  exact congrArg (fun x => Ideal.div (x + blockLoss m c 31) rows) (total_value m c 30 _)

/-- The one write-back, at the last point, writes it: the result's one block is the whole array. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h3 : t.val = 31 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v1.ty.shape.size a) = fun _ => 0 :=
    funext fun a => by fin_cases a <;> decide +kernel
  exact (Memref.read_access_unit_zero (Elt Ideal) main_v1 hz' (fun a => by rw [congrFun hz' a]; simp) (result m c)).symm

/-- So the result array ends holding what the last point left. -/
theorem final_result (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-- The program's scalar result is the reshape of the result array. -/
theorem tail_value (c : Dev nD) :
    Pipeline.afterTail₀ cfgs (dats m) 0 (V0 m) [hostOps1] c main_v2
      = shapeCast S_ (result m c) Gen.shapeCasts_S1x1_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = result m c :=
    (Pipeline.withArrays_arr spec0 launch0.win.arr_inj c _ _ 3).trans (final_result m c)
  funext i
  show shapeCast S_ (Pipeline.withArrays (cfgs 0).spec c (V0 m c) (fun w => (dats m 0 c).arrAt w (cfgs 0).N) (Proc.devRef .tc main_v1)) Gen.shapeCasts_S1x1_S_ i = _
  rw [e]

/-- Read at its one index, it is the sum of all 131072 rows' losses over the number of rows. -/
theorem scalar_value (c : Dev nD) :
    shapeCast S_ (result m c) Gen.shapeCasts_S1x1_S_
      = fun _ => Ideal.div (∑ t ∈ Finset.range 32, blockLoss m c t) rows := by
  funext j
  refine (shapeCast_apply (result m c) Gen.shapeCasts_S1x1_S_ j (ix2 (0 : Fin 1) (0 : Fin 1)) ?_).trans (result_value m c)
  have h1 : (S1x1.rowMajor (ix2 (0 : Fin 1) (0 : Fin 1))).val < S1x1.numel := (S1x1.rowMajor _).isLt
  have h2 : (S_.rowMajor j).val < S_.numel := (S_.rowMajor j).isLt
  have n1 : S1x1.numel = 1 := by decide
  have n0 : S_.numel = 1 := by decide
  show (S1x1.rowMajor (ix2 (0 : Fin 1) (0 : Fin 1))).val = (S_.rowMajor j).val
  omega

/-- THE KERNEL'S RUN: every weakly fair execution terminates with the scalar result at the mean of the rows' losses
    and the three argument arrays unchanged. -/
theorem run : θ_run defs (onTc (τ := τ) (main (F := Ideal))) ⟨m, fun _ => 0, ρ⟩ fun r => ∀ c : Dev nD,
      r.2.mem ((c.tc : Thread nD τ).loc main_v2) = (fun _ => Ideal.div (∑ t ∈ Finset.range 32, blockLoss m c t) rows)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans ((tail_value m c).trans (scalar_value m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Dmsad.Kernel

end
-- ==== Proof.Reference.lean ====
/-
  The reference computes the mean loss: its last stage, read operation by operation at an index.
-/
import proofs.«156097_j43860206027138_1_alg».proof.Proof.Gen.ReferenceIdeal.Read
import proofs.«156097_j43860206027138_1_alg».proof.Proof.RowLoss
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.Dmsad.Reference

open Idealize.ShloMosaic Idealize.ShloMosaic.ValueIdx
open Cert.ReferenceIdeal Cert.ReferenceIdeal.Gen Cert.ReferenceIdeal.Read

/-- The three argument arrays at the extended reals. -/
abbrev XT : Type := (⟨S131072x256, .f32⟩ : BufTy).Contents (Elt Ideal)
abbrev CT : Type := (⟨S128x256, .f32⟩ : BufTy).Contents (Elt Ideal)
abbrev ST : Type := (⟨S131072, .i32⟩ : BufTy).Contents (Elt Ideal)

/-- The squared norm of row `r` of the batch. -/
theorem v1_row (X : XT) (r : Fin 131072) : val_main_v1 (F := Ideal) X (ix1 r) = sq (row X r) := by
  rw [val_main_v1_apply, val_main_cst_apply]
  show Ideal.ofBits .f32 0x00000000#32 + _ = _
  rw [Ideal.ofBits_zero_f32, zero_add]
  unfold sq
  refine Finset.sum_congr rfl fun k _ => ?_
  rw [val_main_v0_apply]
  have e : idx_main_v1 (ix1 r) k = ix2 r k :=
    funext fun a => Fin.ext (by match a with | ⟨0, _⟩ => rfl | ⟨1, _⟩ => rfl)
  rw [e]
  rfl

/-- The squared norm of centre `j`. -/
theorem v4_row (C : CT) (j : Fin 128) : val_main_v4 (F := Ideal) C (ix1 j) = sq (fun k => C (ix2 j k)) := by
  rw [val_main_v4_apply, val_main_cst_0_apply]
  show Ideal.ofBits .f32 0x00000000#32 + _ = _
  rw [Ideal.ofBits_zero_f32, zero_add]
  unfold sq
  refine Finset.sum_congr rfl fun k _ => ?_
  rw [val_main_v3_apply]
  have e : idx_main_v4 (ix1 j) k = ix2 j k :=
    funext fun a => Fin.ext (by match a with | ⟨0, _⟩ => rfl | ⟨1, _⟩ => rfl)
  rw [e]
  rfl

/-- The product of row `r` with centre `j`. -/
theorem v6_at (X : XT) (C : CT) (r : Fin 131072) (j : Fin 128) :
    val_main_v6 (F := Ideal) X C (ix2 r j) = ∑ k : Fin 256, X (ix2 r k) * C (ix2 j k) := by
  rw [val_main_v6_apply]
  refine Finset.sum_congr rfl fun k _ => ?_
  rw [val_main_v5_apply]
  have el : lidx_main_v6 (ix2 r j) k = ix2 r k :=
    funext fun a => Fin.ext (by match a with | ⟨0, _⟩ => rfl | ⟨1, _⟩ => rfl)
  have er : idx_main_v5 (ridx_main_v6 (ix2 r j) k) = ix2 j k :=
    funext fun a => Fin.ext (by match a with | ⟨0, _⟩ => rfl | ⟨1, _⟩ => rfl)
  rw [el, er]

/-- The expanded squared distance from row `r` to centre `j`. -/
theorem v13_at (X : XT) (C : CT) (r : Fin 131072) (j : Fin 128) :
    val_main_v13 (F := Ideal) X C (ix2 r j) = sqdist (row X r) C j := by
  rw [val_main_v13_apply, val_main_v10_apply, val_main_v9_apply, val_main_v2_apply, val_main_v8_apply,
    val_main_v7_apply, val_main_cst_1_apply, val_main_v12_apply, val_main_v11_apply]
  have e1 : idx_main_v2 (idx_main_v9 (ix2 r j)) = ix1 r :=
    funext fun a => Fin.ext (by match a with | ⟨0, _⟩ => rfl)
  have e2 : idx_main_v11 (idx_main_v12 (ix2 r j)) = ix1 j :=
    funext fun a => Fin.ext (by match a with | ⟨0, _⟩ => rfl)
  rw [e1, e2, v1_row, v4_row, v6_at]
  rfl

/-- The minimum over the centres of the expanded squared distances from row `r`. -/
theorem v14_row (X : XT) (C : CT) (r : Fin 131072) :
    val_main_v14 (F := Ideal) X C (ix1 r)
      = (Finset.univ : Finset (Fin 128)).fold min inf (sqdist (row X r) C) := by
  unfold val_main_v14
  rw [Host.reduce_eq_fold_single FloatOps.minimumf _ _ reducesTo_S131072x128_S131072_d1 (by decide) h_S_ (ix1 r)]
  rw [val_main_cst_2_apply]
  have e : (val_main_v13 (F := Ideal) X C ∘
      (by decide : S131072x128.Reduces [1] S131072).lift (ix1 r)) = sqdist (row X r) C := by
    refine funext fun (j : Fin 128) => ?_
    show val_main_v13 (F := Ideal) X C _ = _
    have ej : (by decide : S131072x128.Reduces [1] S131072).lift (ix1 r) j = ix2 r j :=
      funext fun a => Fin.ext (by match a with | ⟨0, _⟩ => rfl | ⟨1, _⟩ => rfl)
    rw [ej, v13_at]
  rw [e]
  rfl

/-- The distance of row `r` to its nearest centre, cut below at zero. -/
theorem v16_row (X : XT) (C : CT) (r : Fin 131072) :
    val_main_v16 (F := Ideal) X C (ix1 r) = dist (row X r) C := by
  rw [val_main_v16_apply, v14_row, val_main_v15_apply, val_main_cst_3_apply]
  show max _ (Ideal.ofBits .f32 0x00000000#32) = _
  rw [Ideal.ofBits_zero_f32]
  rfl

/-- The loss of row `r`. -/
theorem v25_row (X : XT) (C : CT) (S : ST) (r : Fin 131072) :
    val_main_v25 (F := Ideal) X C S (ix1 r) = lossR (dist (row X r) C) (S (ix1 r)) := by
  rw [val_main_v25_apply, val_main_v19_apply, val_main_v18_apply, val_main_c_apply, val_main_v24_apply,
    val_main_v23_apply, val_main_cst_5_apply, val_main_v22_apply, val_main_v21_apply, val_main_v20_apply,
    val_main_cst_4_apply, val_main_v17_apply, v16_row]
  rfl

/-- The reference's result is the mean loss. -/
theorem value (X : (⟨Cert.ReferenceIdeal.S131072x256, .f32⟩ : BufTy).Contents (Elt Ideal))
    (C : (⟨Cert.ReferenceIdeal.S128x256, .f32⟩ : BufTy).Contents (Elt Ideal))
    (S : (⟨Cert.ReferenceIdeal.S131072, .i32⟩ : BufTy).Contents (Elt Ideal)) :
    Cert.ReferenceIdeal.Read.val_main_v27 (F := Ideal) X C S = fun _ => Cert.Dmsad.meanLoss X C S := by
  funext i
  rw [val_main_v27_apply, val_main_v26_apply, val_main_cst_6_apply, val_main_cst_7_apply]
  show Ideal.div (Ideal.ofBits .f32 0x00000000#32 + _) rows = _
  rw [Ideal.ofBits_zero_f32, zero_add]
  unfold meanLoss
  refine congrArg (fun s => Ideal.div s rows) ?_
  refine ((Equiv.sum_comp (idxEquiv1 (n := 131072)).symm
    (fun j => val_main_v25 (F := Ideal) X C S j)).symm).trans ?_
  refine Finset.sum_congr rfl fun r _ => ?_
  exact v25_row X C S r

end Cert.Dmsad.Reference

end
-- ==== Proof.LossAlgebra.lean ====
/-
  Two facts about the row loss that need neither program.

  * The two spellings of a row's loss agree at every label in {-1, 0, 1}: a distance cut below at zero is a
    non-negative real or +∞, ε is a positive real, so `d + ε` is a positive real or +∞; there the power by 1 is the
    identity and the power by -1 is the inverse, which is also what the quotient of one by `d + ε` multiplies by.
  * A sum over the 131072 rows is the sum over the 32 blocks of the sums over each block's 4096 rows: the map
    `(t, p) ↦ 4096 t + p` is a bijection, with inverse quotient and remainder by 4096.
-/
import proofs.«156097_j43860206027138_1_alg».proof.Proof.RowLoss
import Mathlib.Analysis.SpecialFunctions.Pow.Real
import Mathlib.Data.EReal.Inv
import Mathlib.Algebra.BigOperators.Fin

noncomputable section

namespace Cert.Dmsad

open Idealize.ShloMosaic Idealize.ShloMosaic.ValueIdx

/-- ε is a positive real number. -/
theorem eps_real : ∃ e : ℝ, 0 < e ∧ eps = ((e : ℝ) : EReal) := by
  refine ⟨(8796093 : ℝ) * (2 : ℝ) ^ (-43 : Int), by positivity, ?_⟩
  simp [eps, Ideal.ofBits, Ideal.ieee]

/-- A non-negative extended real plus ε is a positive real or +∞. -/
theorem add_eps_cases (d : EReal) (hd : 0 ≤ d) : d + eps = ⊤ ∨ ∃ x : ℝ, 0 < x ∧ d + eps = ((x : ℝ) : EReal) := by
  obtain ⟨e, he, heps⟩ := eps_real
  rw [heps]
  induction d using EReal.rec with
  | bot => simp at hd
  | top => left; exact EReal.top_add_coe e
  | coe r =>
    right
    have hr : 0 ≤ r := by exact_mod_cast hd
    exact ⟨r + e, by linarith, by rw [EReal.coe_add]⟩

/-- On a positive real or +∞ the power by one is the identity. -/
theorem pow_one_of_cases (y : EReal) (hy : y = ⊤ ∨ ∃ x : ℝ, 0 < x ∧ y = ((x : ℝ) : EReal)) :
    Ideal.pow y (((1 : ℤ) : ℝ) : EReal) = y := by
  rcases hy with rfl | ⟨x, _, rfl⟩
  · simp [Ideal.pow_top]
  · rw [Ideal.pow_coe_coe]
    simp

/-- On a positive real or +∞ the quotient of `a` by it is `a` times the power by minus one. -/
theorem div_eq_mul_pow_neg_one (a y : EReal) (hy : y = ⊤ ∨ ∃ x : ℝ, 0 < x ∧ y = ((x : ℝ) : EReal)) :
    Ideal.div a y = a * Ideal.pow y (((-1 : ℤ) : ℝ) : EReal) := by
  rcases hy with rfl | ⟨x, hx, rfl⟩
  · have h0 : ¬ ((0 : EReal) < (((-1 : ℤ) : ℝ) : EReal)) := by
      rw [not_lt]; exact_mod_cast (by norm_num : ((-1 : ℤ) : ℝ) ≤ 0)
    have h1 : ((((-1 : ℤ) : ℝ) : EReal)) ≠ 0 := by
      intro h; have : (((-1 : ℤ) : ℝ)) = 0 := by exact_mod_cast h
      norm_num at this
    rw [Ideal.pow_top, if_neg h0, if_neg h1, Ideal.div, if_neg (by simp), EReal.inv_top]
  · have hx0 : ((x : ℝ) : EReal) ≠ 0 := by
      intro h; have : x = 0 := by exact_mod_cast h
      linarith
    rw [Ideal.pow_coe_coe, Ideal.div, if_neg hx0, ← EReal.coe_inv]
    congr 2
    simp [Real.rpow_neg_one]

/-- At a label in {-1, 0, 1} and a distance cut below at zero, the kernel's selection of the row's loss and the
    reference's power by the label are the same extended real. -/
theorem lossK_eq_lossR (z : EReal) (s : BitVec 32) (hs : s = 0#32 ∨ s = 1#32 ∨ s = 0xFFFFFFFF#32) :
    lossK (max z 0) s = lossR (max z 0) s := by
  have hy := add_eps_cases (max z 0) (le_max_right _ _)
  rcases hs with rfl | rfl | rfl
  · simp [lossK, lossR, Scalar.select, IntOp.cmpi]
  · have ht : ((1#32).toInt) = (1 : ℤ) := by decide
    have hc0 : IntOp.cmpi .eq (1#32) (0#32) = 0#1 := by decide
    have hc1 : IntOp.cmpi .eq (1#32) (1#32) = 1#1 := by decide
    unfold lossK lossR
    rw [hc0, hc1, ht, pow_one_of_cases _ hy]
    simp [Scalar.select]
  · have ht : ((0xFFFFFFFF#32).toInt) = (-1 : ℤ) := by decide
    have hc0 : IntOp.cmpi .eq (0xFFFFFFFF#32) (0#32) = 0#1 := by decide
    have hc1 : IntOp.cmpi .eq (0xFFFFFFFF#32) (1#32) = 0#1 := by decide
    unfold lossK lossR
    rw [hc0, hc1, ht, div_eq_mul_pow_neg_one _ _ hy]
    simp [Scalar.select]

/-- The 32 blocks of 4096 rows tile the 131072 rows: block and place against the row. -/
def blockEquiv : Fin 32 × Fin 4096 ≃ Fin 131072 where
  toFun tp := blockRow tp.1 tp.2
  invFun r := (⟨r.val / 4096, by have := r.isLt; omega⟩, ⟨r.val % 4096, Nat.mod_lt _ (by norm_num)⟩)
  left_inv := by
    rintro ⟨t, p⟩
    have := t.isLt; have := p.isLt
    ext <;> simp only [blockRow] <;> omega
  right_inv := by
    intro r
    have := r.isLt
    ext; simp only [blockRow]; omega

/-- A sum over the rows, taken block by block. -/
theorem sum_blocks (f : Fin 131072 → EReal) :
    ∑ t : Fin 32, ∑ p : Fin 4096, f (blockRow t p) = ∑ r : Fin 131072, f r := by
  rw [← Fintype.sum_prod_type' (fun t p => f (blockRow t p))]
  exact Fintype.sum_equiv blockEquiv _ _ (fun _ => rfl)

end Cert.Dmsad

end
-- ==== Proof.Labels.lean ====
/-
  What the stated precondition says of the labels: its third conjunct is the reduction by `and`, over the one axis, of
  `(label ≥ -1) ∧ (label ≤ 1)` read as signed 32-bit words. When the precondition holds, the reduction is 1, so every
  element of the reduced array is 1, so every label lies between -1 and 1 as a signed word: it is the word 0, the word 1
  or the word of all ones.
-/
import proofs.«156097_j43860206027138_1_alg».proof.Pre_finite_inputs
import proofs.«156097_j43860206027138_1_alg».proof.Proof.Gen.Pre_finite_inputs
import Idealize.ShloMosaic.Lib.ReduceAll
import Idealize.ShloMosaic.Lib.StableHlo.Predicate
import Idealize.ShloMosaic.Lib.ValueIdx

namespace Cert.Dmsad

open Idealize.ShloMosaic Idealize.ShloMosaic.ValueIdx

/-- The scalar shape has one index. -/
instance subsingleton_scalarIdx : Subsingleton Cert.Pre_finite_inputs.S_.Idx :=
  ⟨fun a b => funext fun d => d.elim0⟩

/-- A signed 32-bit word between -1 and 1 is one of the three words 0, 1, -1. -/
theorem word_cases_of_sle (s : BitVec 32) (hge : (0xFFFFFFFF#32).sle s = true) (hle : s.sle 1#32 = true) :
    s = 0#32 ∨ s = 1#32 ∨ s = 0xFFFFFFFF#32 := by
  rw [BitVec.sle, decide_eq_true_eq] at hge hle
  have hm : (0xFFFFFFFF#32).toInt = -1 := by decide
  have h1 : (1#32).toInt = 1 := by decide
  rw [hm] at hge
  rw [h1] at hle
  have hcases : s.toInt = 0 ∨ s.toInt = 1 ∨ s.toInt = -1 := by omega
  rcases hcases with h | h | h
  · left; exact BitVec.eq_of_toInt_eq (by rw [h]; decide)
  · right; left; exact BitVec.eq_of_toInt_eq (by rw [h]; decide)
  · right; right; exact BitVec.eq_of_toInt_eq (by rw [h]; decide)

/-- Under the stated precondition every label is 0, 1 or -1. -/
theorem labels_of_pre [Cert.Pre_finite_inputs.Facts] {F : FTy → Type} [FloatOps F]
    (X : FVec F Cert.Pre_finite_inputs.S131072x256 .f32) (C : FVec F Cert.Pre_finite_inputs.S128x256 .f32)
    (S : IVec Cert.Pre_finite_inputs.S131072 32)
    (h : Cert.Pre_finite_inputs.fn (F := F) X C S = fun _ => 1#1) (r : Fin 131072) :
    S (ValueIdx.ix1 r) = 0#32 ∨ S (ValueIdx.ix1 r) = 1#32 ∨ S (ValueIdx.ix1 r) = 0xFFFFFFFF#32 := by
  have h0 := congrFun h ValueIdx.ix0
  dsimp only [Cert.Pre_finite_inputs.fn] at h0
  -- the outer conjunction: the third reduction is 1
  have h14 := (IntOp.andi_eq_one.1 h0).2
  -- so its operand is 1 at the label's place
  have hel := Host.reduce_andi_all _ _ _ _ _ h14 (ValueIdx.ix1 r)
  obtain ⟨hge, hle⟩ := IntOp.andi_eq_one.1 hel
  -- the two compares against the broadcast constants, read at that place
  have hge' : IntOp.cmpi .sge (S (ValueIdx.ix1 r)) (4294967295#32) = 1#1 := hge
  have hle' : IntOp.cmpi .sle (S (ValueIdx.ix1 r)) (1#32) = 1#1 := hle
  simp only [IntOp.cmpi, StableHlo.Predicate.ofBool_eq_one_iff] at hge' hle'
  exact word_cases_of_sle _ hge' hle'

end Cert.Dmsad
-- ==== Proof.MeanLoss.lean ====
/-
  The two idealized programs end with the same scalar: the mean over the 131072 rows of the row's loss.

  The kernel's total is the sum over the 32 blocks of each block's 4096 losses, which re-indexes to the sum over all
  rows; at a label in {-1, 0, 1} — what the precondition says of every label — the kernel's selection of a row's loss
  is the reference's power by the label, so the two sums agree term by term.
-/
import proofs.«156097_j43860206027138_1_alg».proof.Defs
import proofs.«156097_j43860206027138_1_alg».proof.Proof.Gen.Pre_finite_inputs
import proofs.«156097_j43860206027138_1_alg».proof.Proof.KernelRun
import proofs.«156097_j43860206027138_1_alg».proof.Proof.Reference
import proofs.«156097_j43860206027138_1_alg».proof.Proof.LossAlgebra
import proofs.«156097_j43860206027138_1_alg».proof.Proof.Labels

noncomputable section

namespace Cert.Dmsad

open Idealize.ShloMosaic Idealize.ShloMosaic.TcCoe Idealize.SL.Sem Idealize.ShloMosaic.ValueIdx
open Cert.Dmsad.Kernel

/-- The sum over the blocks, block by block, is the sum over the rows. -/
theorem blocks_total (m : (ℓ : Loc Cert.KernelIdeal.nD Cert.KernelIdeal.τ Cert.KernelIdeal.sig) → Buf (Elt Ideal) ℓ)
    (c : Dev Cert.KernelIdeal.nD) :
    ∑ t ∈ Finset.range 32, blockLoss m c t = ∑ r : Fin 131072, rowLoss m c r := by
  rw [Finset.sum_range, ← sum_blocks]
  refine Finset.sum_congr rfl fun t _ => ?_
  unfold blockLoss
  rw [dif_pos t.isLt]

/-- Under the precondition the kernel's mean is the reference's. -/
theorem kernel_mean (m : (ℓ : Loc Cert.KernelIdeal.nD Cert.KernelIdeal.τ Cert.KernelIdeal.sig) → Buf (Elt Ideal) ℓ)
    (hpre : Cert.Pre_KernelIdeal m) (c : Dev Cert.KernelIdeal.nD) :
    Ideal.div (∑ t ∈ Finset.range 32, blockLoss m c t) rows = meanLoss (Xarr m c) (Carr m c) (Sarr m c) := by
  rw [blocks_total]
  unfold meanLoss
  refine congrArg (fun x => Ideal.div x rows) (Finset.sum_congr rfl fun r _ => ?_)
  unfold rowLoss dist
  exact lossK_eq_lossR _ _ (labels_of_pre (F := Ideal) _ _ _ (hpre c) r)

/-- `Cert.algebraic_KernelIdeal_ReferenceIdeal`: both runs end with the mean loss of the (agreeing) arguments. -/
theorem algebraic : Cert.algebraic_KernelIdeal_ReferenceIdeal := by
  intro m ρ m' ρ' hpre hagree
  refine ⟨fun c => fun _ => meanLoss (Xarr m c) (Carr m c) (Sarr m c), ?_, ?_⟩
  · refine (θ_run Cert.KernelIdeal.defs _ _).mono (fun r h c => ?_) (Cert.Dmsad.Kernel.run m ρ)
    refine ⟨(h c).1.trans ?_, (h c).2⟩
    exact funext fun _ => kernel_mean m hpre c
  · refine (θ_run Cert.ReferenceIdeal.defs _ _).mono (fun r h c => ?_) (Cert.ReferenceIdeal.Value.run (F := Ideal) m' ρ')
    refine ⟨?_, (h c).2⟩
    rw [(h c).1, Cert.ReferenceIdeal.Read.val_main_v27_eq, Cert.Dmsad.Reference.value, (hagree c).1, (hagree c).2.1,
      (hagree c).2.2]
    rfl

end Cert.Dmsad

end
-- ==== Proof.lean ====
/-
  The certificate: the kernel computes, block by block, the mean over the batch of each row's loss — the squared
  distance to the nearest centre, cut below at zero, taken as it is, plus ε, or inverted after adding ε, by the
  row's label — and the reference computes the same mean in one pass with a power by the label. Under the
  precondition (finite inputs, labels in {-1, 0, 1}) the two idealized programs end with equal results.

  The three frames are the programs' runs with the results dropped; nothing was rewritten by the idealization, so
  its soundness claim is trivial; the equality of results is `Cert.Dmsad.algebraic`.
-/
import proofs.«156097_j43860206027138_1_alg».proof.Defs
import proofs.«156097_j43860206027138_1_alg».proof.Proof.Gen.Kernel
import proofs.«156097_j43860206027138_1_alg».proof.Proof.Gen.Kernel.Skeleton
import proofs.«156097_j43860206027138_1_alg».proof.Proof.Gen.Kernel.Launch
import proofs.«156097_j43860206027138_1_alg».proof.Proof.Gen.Kernel.Points
import proofs.«156097_j43860206027138_1_alg».proof.Proof.Gen.Kernel.Frame
import proofs.«156097_j43860206027138_1_alg».proof.Proof.Gen.KernelIdeal
import proofs.«156097_j43860206027138_1_alg».proof.Proof.Gen.KernelIdeal.Skeleton
import proofs.«156097_j43860206027138_1_alg».proof.Proof.Gen.KernelIdeal.Launch
import proofs.«156097_j43860206027138_1_alg».proof.Proof.Gen.KernelIdeal.Points
import proofs.«156097_j43860206027138_1_alg».proof.Proof.Gen.KernelIdeal.Frame
import proofs.«156097_j43860206027138_1_alg».proof.Proof.Gen.ReferenceIdeal
import proofs.«156097_j43860206027138_1_alg».proof.Proof.Gen.ReferenceIdeal.Run
import proofs.«156097_j43860206027138_1_alg».proof.Proof.Gen.Pre_finite_inputs
import proofs.«156097_j43860206027138_1_alg».proof.Proof.MeanLoss
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Dmsad.algebraic⟩

end Cert.Proof

end
